-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S65536 : Shape := ⟨1, ![65536]⟩
abbrev S4096x1 : Shape := ⟨2, ![4096, 1]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S65536 : S_.BroadcastsInDim S65536 (![] : Fin 0 → Fin S65536.rank)
  reducesTo_S65536_S_d0 : S65536.ReducesTo [0] S_
  bcast_S_S4096x1 : S_.BroadcastsInDim S4096x1 (![] : Fin 0 → Fin S4096x1.rank)
  reducesTo_S4096x1_S_d0_1 : S4096x1.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg1 : IVec S4096x4096 32) (main_v13 : IVec S_ 1) (main_v15 : IVec S4096x4096 1) (main_c_5 : IVec S_ 32) : IVec S_ 1 :=
  let main_v16 : IVec S4096x4096 32 := broadcastInDim S4096x4096 ![] bcast_S_S4096x4096 main_c_5
  let main_v17 : IVec S4096x4096 1 := cmpi .slt main_arg1 main_v16
  let main_v18 : IVec S4096x4096 1 := andi main_v15 main_v17
  let main_c_6 : IVec S_ 1 := constantI S_ 1 1#1
  let main_v19 : IVec S_ 1 := (fun x v => Host.reduce IntOp.andi x v reducesTo_S4096x4096_S_d0_1 h_S_) main_v18 main_c_6
  let main_v20 : IVec S_ 1 := andi main_v13 main_v19
  main_v20

def fn {F : FTy → Type} [FloatOps F] (main_arg0 : FVec F S4x2048x4096 .f32) (main_arg1 : IVec S4096x4096 32) (main_arg2 : FVec F S65536 .f32) (main_arg3 : FVec F S4096x1 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S65536 .f32 := Host.absf main_arg2
  let main_cst_0 : FVec F S_ .f32 := constant S_ .f32 0x7F800000#32
  let main_v5 : FVec F S65536 .f32 := broadcastInDim S65536 ![] bcast_S_S65536 main_cst_0
  let main_v6 : IVec S65536 1 := cmpf .olt main_v4 main_v5
  let main_c_1 : IVec S_ 1 := constantI S_ 1 1#1
  let main_v7 : IVec S_ 1 := (fun x v => Host.reduce IntOp.andi x v reducesTo_S65536_S_d0 h_S_) main_v6 main_c_1
  let main_v8 : IVec S_ 1 := andi main_v3 main_v7
  let main_v9 : FVec F S4096x1 .f32 := Host.absf main_arg3
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_c_4 : IVec S_ 32 := constantI S_ 32 4294901760#32
  let main_v14 : IVec S4096x4096 32 := broadcastInDim S4096x4096 ![] bcast_S_S4096x4096 main_c_4
  let main_v15 : IVec S4096x4096 1 := cmpi .sge main_arg1 main_v14
  let main_c_5 : IVec S_ 32 := constantI S_ 32 65536#32
  fn_part1 (F := F) main_arg1 main_v13 main_v15 main_c_5
-- ==== Kernel.lean ====
abbrev S4x2048x4096 : Shape := ⟨3, ![4, 2048, 4096]⟩
abbrev S4096x4096 : Shape := ⟨2, ![4096, 4096]⟩
abbrev S65536 : Shape := ⟨1, ![65536]⟩
abbrev S4096x1 : Shape := ⟨2, ![4096, 1]⟩
abbrev S_ : Shape := ⟨0, ![]⟩
abbrev S4096x4096x1 : Shape := ⟨3, ![4096, 4096, 1]⟩
abbrev S1 : Shape := ⟨1, ![1]⟩
abbrev S1x1x1 : Shape := ⟨3, ![1, 1, 1]⟩
abbrev S8192x4096 : Shape := ⟨2, ![8192, 4096]⟩
abbrev S256x4096 : Shape := ⟨2, ![256, 4096]⟩

abbrev nBuf : Space → Nat
  | .hbm => 32
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S65536, .f32⟩
  | .hbm, ⟨3, _⟩ => ⟨S4096x1, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S1, .i32⟩
  | .hbm, ⟨13, _⟩ => ⟨S_, .i32⟩
  | .hbm, ⟨14, _⟩ => ⟨S4096x4096x1, .i32⟩
  | .hbm, ⟨15, _⟩ => ⟨S4096x4096x1, .i1⟩
  | .hbm, ⟨16, _⟩ => ⟨S1x1x1, .i32⟩
  | .hbm, ⟨17, _⟩ => ⟨S4096x4096x1, .i32⟩
  | .hbm, ⟨18, _⟩ => ⟨S4096x4096x1, .i1⟩
  | .hbm, ⟨19, _⟩ => ⟨S4096x4096x1, .i1⟩
  | .hbm, ⟨20, _⟩ => ⟨S_, .i1⟩
  | .hbm, ⟨21, _⟩ => ⟨S4096x4096, .i1⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .bf16⟩
  | .hbm, ⟨29, _⟩ => ⟨S8192x4096, .f32⟩
  | .hbm, ⟨30, _⟩ => ⟨S8192x4096, .f32⟩
  | .hbm, ⟨31, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x4096, .bf16⟩
  | .local _ .vmem, ⟨3, _⟩ => ⟨S256x4096, .f32⟩
  | .local _ .vmem, ⟨4, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S_S4096x4096x1 : S_.BroadcastsInDim S4096x4096x1 (![] : Fin 0 → Fin S4096x4096x1.rank)
  bcast_S1_S1x1x1_2 : S1.BroadcastsInDim S1x1x1 (![2] : Fin 1 → Fin S1x1x1.rank)
  bcast_S1x1x1_S4096x4096x1_0_1_2 : S1x1x1.BroadcastsInDim S4096x4096x1 (![0, 1, 2] : Fin 3 → Fin S4096x4096x1.rank)
  reducesTo_S4096x4096x1_S4096x4096_d2 : S4096x4096x1.ReducesTo [2] S4096x4096
  h_S_ : 0 < S_.numel
  bcast_S4096x1_S4096x4096_0_1 : S4096x1.BroadcastsInDim S4096x4096 (![0, 1] : Fin 2 → Fin S4096x4096.rank)
  bitsLt_bf16_f32 : FTy.bits .bf16 < FTy.bits .f32
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S8192x4096_S4x2048x4096 : S8192x4096.ShapeCasts S4x2048x4096
  gather_S65536_S4096x4096x1_S4096x4096_n_0_n_n_0_2_1_wf : GatherDims.WF S65536 S4096x4096x1 S4096x4096 [] [0] [] [0] [] 2 ![1]
  dot_S256x4096_S4096x4096_S256x4096_1_1_0_0_n_n_wf : DotDims.WF S256x4096 S4096x4096 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S8192x4096.size a
  hwx0_2 : ∀ i : grid0.Coords, EltTy.bits .f32 = 32 ∨ (Rect.block (s := S8192x4096) S256x4096.size (cc0_transform_2 i) (hinb0_2 i)).WholeWords (EltTy.packing .f32)

variable [Facts₀]

def gather_S65536_S4096x4096x1_S4096x4096_n_0_n_n_0_2_1 : GatherDims S65536 S4096x4096x1 S4096x4096 where
  offsetDims := []
  collapsedSliceDims := [0]
  operandBatchingDims := []
  startIndicesBatchingDims := []
  startIndexMap := [0]
  indexVectorDim := 2
  sliceSizes := ![1]
  wf := gather_S65536_S4096x4096x1_S4096x4096_n_0_n_n_0_2_1_wf
def dot_S256x4096_S4096x4096_S256x4096_1_1_0_0_n_n : DotDims S256x4096 S4096x4096 S256x4096 where
  lhsContracting := [1]
  rhsContracting := [1]
  lhsNonContracting := [0]
  rhsNonContracting := [0]
  lhsBatch := []
  rhsBatch := []
  wf := dot_S256x4096_S4096x4096_S256x4096_1_1_0_0_n_n_wf

abbrev win0_0 : Pipeline.Window sig grid0 :=
  Pipeline.Window.ofSpec (Memref.whole main_v4) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S65536 : Shape := ⟨1, ![65536]⟩
abbrev S4096x1 : Shape := ⟨2, ![4096, 1]⟩
abbrev S_ : Shape := ⟨0, ![]⟩
abbrev S4096x4096x1 : Shape := ⟨3, ![4096, 4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S65536, .f32⟩
  | .hbm, ⟨3, _⟩ => ⟨S4096x1, .f32⟩
  | .hbm, ⟨4, _⟩ => ⟨S_, .i32⟩
  | .hbm, ⟨5, _⟩ => ⟨S4096x4096, .i32⟩
  | .hbm, ⟨6, _⟩ => ⟨S4096x4096, .i1⟩
  | .hbm, ⟨7, _⟩ => ⟨S_, .i32⟩
  | .hbm, ⟨8, _⟩ => ⟨S4096x4096, .i32⟩
  | .hbm, ⟨9, _⟩ => ⟨S4096x4096, .i32⟩
  | .hbm, ⟨10, _⟩ => ⟨S4096x4096, .i32⟩
  | .hbm, ⟨11, _⟩ => ⟨S4096x4096x1, .i32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4096x4096x1_0_1 : S4096x4096.BroadcastsInDim S4096x4096x1 (![0, 1] : Fin 2 → Fin S4096x4096x1.rank)
  bcast_S4096x1_S4096x4096_0_1 : S4096x1.BroadcastsInDim S4096x4096 (![0, 1] : Fin 2 → Fin S4096x4096.rank)
  gather_S65536_S4096x4096x1_S4096x4096_n_0_n_n_0_2_1_wf : GatherDims.WF S65536 S4096x4096x1 S4096x4096 [] [0] [] [0] [] 2 ![1]
  dot_S4x2048x4096_S4096x4096_S4x2048x4096_2_1_01_0_n_n_wf : DotDims.WF S4x2048x4096 S4096x4096 S4x2048x4096 [2] [1] [0, 1] [0] [] []

variable [Facts₀]

def gather_S65536_S4096x4096x1_S4096x4096_n_0_n_n_0_2_1 : GatherDims S65536 S4096x4096x1 S4096x4096 where
  offsetDims := []
  collapsedSliceDims := [0]
  operandBatchingDims := []
  startIndicesBatchingDims := []
  startIndexMap := [0]
  indexVectorDim := 2
  sliceSizes := ![1]
  wf := gather_S65536_S4096x4096x1_S4096x4096_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.PreRange.lean ====
/-
  The index range stated by the precondition, read back.

  The precondition's last conjunct is `all ((g ≥ -65536) ∧ (g < 65536))` over the index array `g`; where the whole
  precondition is `true`, every entry of `g` satisfies `-65536 ≤ g < 65536` as a signed 32-bit word.
-/
import proofs.«407452_j50663434223822_2_alg».proof.Pre_finite_inputs
import Idealize.ShloMosaic.Lib.ReduceAll
import Idealize.ShloMosaic.Lib.ValueIdx

namespace Cert.Pre_finite_inputs.Range

open Idealize.ShloMosaic Cert.Pre_finite_inputs

variable [Facts] {F : FTy → Type} [FloatOps F]

instance : Subsingleton S_.Idx := ⟨fun _ _ => funext fun d => d.elim0⟩

/-- Every entry of the index array lies in `[-65536, 65536)` when the precondition holds. -/
theorem index_range (x : FVec F S4x2048x4096 .f32) (g : IVec S4096x4096 32) (lut : FVec F S65536 .f32)
    (scale : FVec F S4096x1 .f32) (h : fn (F := F) x g lut scale = fun _ => 1#1) (j : S4096x4096.Idx) :
    (-65536 : Int) ≤ (g j).toInt ∧ (g j).toInt < 65536 := by
  have h0 := congrFun h ValueIdx.ix0
  dsimp only [fn, fn_part1] at h0
  obtain ⟨-, hall⟩ := IntOp.andi_eq_one.1 h0
  have hj := Host.reduce_andi_all _ _ _ _ _ hall j
  obtain ⟨hge, hlt⟩ := IntOp.andi_eq_one.1 hj
  have hge' : IntOp.cmpi .sge (g j) 4294901760#32 = 1#1 := hge
  have hlt' : IntOp.cmpi .slt (g j) 65536#32 = 1#1 := hlt
  rw [IntOp.cmpi_sge] at hge'
  rw [IntOp.cmpi_slt] at hlt'
  have e1 : (4294901760#32 : BitVec 32).toInt = -65536 := by decide
  have e2 : (65536#32 : BitVec 32).toInt = 65536 := by decide
  rw [e1] at hge'
  rw [e2] at hlt'
  exact ⟨hge', hlt'⟩

end Cert.Pre_finite_inputs.Range
-- ==== Proof.LinearSpec.lean ====
/-
  The specification both programs meet: a linear layer over the extended reals.

  For an activation array `x : [4, 2048, 4096]` and a weight matrix `w : [4096, 4096]` (one row per output
  feature), the result at `(b, s, o)` is the inner product of the activation row `x[b, s, ·]` with the weight
  row `w[o, ·]`:  `out[b, s, o] = ∑ k, x[b, s, k] · w[o, k]`.
-/
import Idealize.ShloMosaic.Lib.ValueIdx

noncomputable section

open scoped BigOperators

namespace Cert.Spec

open Idealize.ShloMosaic Idealize.ShloMosaic.ValueIdx

/-- `out[b, s, o] = ∑ k, x[b, s, k] · w[o, k]` on the extended reals. -/
def linear (x : FVec Ideal ⟨3, ![4, 2048, 4096]⟩ .f32) (w : FVec Ideal ⟨2, ![4096, 4096]⟩ .f32) :
    FVec Ideal ⟨3, ![4, 2048, 4096]⟩ .f32 :=
  fun i => ∑ k : Fin 4096, x (ix3 (i 0) (i 1) k) * w (ix2 (i 2) k)

theorem linear_apply (x : FVec Ideal ⟨3, ![4, 2048, 4096]⟩ .f32) (w : FVec Ideal ⟨2, ![4096, 4096]⟩ .f32)
    (b : Fin 4) (s : Fin 2048) (o : Fin 4096) :
    linear x w (ix3 b s o) = ∑ k : Fin 4096, x (ix3 b s k) * w (ix2 o k) := rfl

end Cert.Spec

end
-- ==== Proof.KernelValue.lean ====
/-
  The kernel's result as one function of its argument arrays.

  The region tiles the re-laid activations `xf : [8192, 4096]` into 32 blocks of 256 rows; at each block it
  multiplies the block's rows with ALL rows of the weight matrix `w : [4096, 4096]`, contracting the last axis of
  both, and writes the 256 result rows back. At the extended reals the product into a zero accumulator is the
  plain sum, so block `t` holds `∑ k, xf[256 t + p, k] · w[q, k]` at `(p, q)`, the blocks cover all 8192 rows, and
  the whole array is `rowsTimes xf w`. The host line after the region re-lays `[8192, 4096]` as `[4, 2048, 4096]`;
  since `xf` is `x` re-laid the other way, the result at `(b, s, o)` is `∑ k, x[b, s, k] · w[o, k]`.
-/
import proofs.«407452_j50663434223822_2_alg».proof.Proof.Gen.KernelIdeal.Frame
import proofs.«407452_j50663434223822_2_alg».proof.Proof.LinearSpec
import Idealize.ShloMosaic.Lib.Pipeline.Value
import Idealize.ShloMosaic.Lib.ValueIdx
import Idealize.ShloMosaic.PureOps.Ideal.Laws
import Idealize.ShloMosaic.Lib.StableHlo.Run

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

/-! ## The body's product at an index -/

theorem lhs_0 (i : S256x4096.Idx) (q : dot_S256x4096_S4096x4096_S256x4096_1_1_0_0_n_n.contr.Idx) :
    (dot_S256x4096_S4096x4096_S256x4096_1_1_0_0_n_n.lhsIdx i q 0).val = (i 0).val := by
  unfold DotDims.lhsIdx
  rw [dif_neg (show ¬(0 : Fin S256x4096.rank) ∈ dot_S256x4096_S4096x4096_S256x4096_1_1_0_0_n_n.lhsBatch by decide), dif_pos (show (0 : Fin S256x4096.rank) ∈ dot_S256x4096_S4096x4096_S256x4096_1_1_0_0_n_n.lhsNonContracting by decide)]
  rfl
theorem lhs_1 (i : S256x4096.Idx) (q : dot_S256x4096_S4096x4096_S256x4096_1_1_0_0_n_n.contr.Idx) :
    (dot_S256x4096_S4096x4096_S256x4096_1_1_0_0_n_n.lhsIdx i q 1).val = (q ⟨0, by decide⟩).val :=
  dot_S256x4096_S4096x4096_S256x4096_1_1_0_0_n_n.lhsIdx_val_of_single rfl i q
theorem rhs_0 (i : S256x4096.Idx) (q : dot_S256x4096_S4096x4096_S256x4096_1_1_0_0_n_n.contr.Idx) :
    (dot_S256x4096_S4096x4096_S256x4096_1_1_0_0_n_n.rhsIdx i q 0).val = (i 1).val := by
  unfold DotDims.rhsIdx
  rw [dif_neg (show ¬(0 : Fin S4096x4096.rank) ∈ dot_S256x4096_S4096x4096_S256x4096_1_1_0_0_n_n.rhsBatch by decide), dif_pos (show (0 : Fin S4096x4096.rank) ∈ dot_S256x4096_S4096x4096_S256x4096_1_1_0_0_n_n.rhsNonContracting by decide)]
  rfl
theorem rhs_1 (i : S256x4096.Idx) (q : dot_S256x4096_S4096x4096_S256x4096_1_1_0_0_n_n.contr.Idx) :
    (dot_S256x4096_S4096x4096_S256x4096_1_1_0_0_n_n.rhsIdx i q 1).val = (q ⟨0, by decide⟩).val :=
  dot_S256x4096_S4096x4096_S256x4096_1_1_0_0_n_n.rhsIdx_val_of_single rfl i q

/-- The body's payload at `(p, q)`: row `p` of the activation block against row `q` of the weights. -/
theorem pay_apply (x0 : FVec Ideal S256x4096 .f32) (x1 : FVec Ideal S4096x4096 .bf16) (p : Fin 256) (q : Fin 4096) :
    k0_pay1 (F := Ideal) x0 x1 (ix2 p q) = ∑ k : Fin 4096, x0 (ix2 p k) * x1 (ix2 q k) := by
  unfold k0_pay1
  simp only [shapeCast_self, matmul]
  rw [Ideal.matmul_constant_zero_apply, ← Equiv.sum_comp (contrEquiv1 dot_S256x4096_S4096x4096_S256x4096_1_1_0_0_n_n 4096 rfl rfl).symm]
  refine Finset.sum_congr rfl fun k _ => ?_
  have hk := contrEquiv1_symm_val dot_S256x4096_S4096x4096_S256x4096_1_1_0_0_n_n 4096 rfl rfl k
  have el : dot_S256x4096_S4096x4096_S256x4096_1_1_0_0_n_n.lhsIdx (ix2 p q) ((contrEquiv1 dot_S256x4096_S4096x4096_S256x4096_1_1_0_0_n_n 4096 rfl rfl).symm k) = ix2 p k := funext fun a => Fin.ext (by
    match a with
    | ⟨0, _⟩ => exact lhs_0 _ _
    | ⟨1, _⟩ => exact (lhs_1 _ _).trans hk)
  have er : dot_S256x4096_S4096x4096_S256x4096_1_1_0_0_n_n.rhsIdx (ix2 p q) ((contrEquiv1 dot_S256x4096_S4096x4096_S256x4096_1_1_0_0_n_n 4096 rfl rfl).symm k) = ix2 q k := funext fun a => Fin.ext (by
    match a with
    | ⟨0, _⟩ => exact rhs_0 _ _
    | ⟨1, _⟩ => exact (rhs_1 _ _).trans hk)
  rw [el, er]
  rfl

/-! ## The whole-array function and the blocks -/

/-- Rows of `xf` against rows of `w`: `(r, o) ↦ ∑ k, xf[r, k] · w[o, k]`. -/
def rowsTimes (xf : FVec Ideal S8192x4096 .f32) (w : FVec Ideal S4096x4096 .bf16) : FVec Ideal S8192x4096 .f32 :=
  fun i => ∑ k : Fin 4096, xf (ix2 (i 0) k) * w (ix2 (i 1) k)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the activation and result windows step one block of rows per point, the weight
    window stays on its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the activation block at point `t` is row `256 t + p` of the array. -/
theorem iblk0_apply (c : Dev nD) (t : Fin cfg0.N) (p : Fin 256) (k : Fin 4096) (r : Fin 8192)
    (hr : r.val = 256 * t.val + p.val) :
    (iblk m c 0 t : FVec Ideal S256x4096 .f32) (ix2 p k) = (V m c main_v4 : FVec Ideal S8192x4096 .f32) (ix2 r k) := by
  obtain ⟨e0, e1, -⟩ := idx_facts t
  have hemb : ((cfg0.win 0).blk t).view.emb (ix2 p k) = ix2 r k := by
    funext a
    apply Fin.ext
    match a with
    | ⟨0, _⟩ => show win0_0.index t 0 * 256 + 1 * p.val = r.val; rw [e0, hr]; omega
    | ⟨1, _⟩ => show win0_0.index t 1 * 4096 + 1 * k.val = k.val; rw [e1]; omega
  unfold iblk
  rw [View.read_apply, hemb]
  exact cast_eq _ _

/-- The weight block at every point is the whole weight array. -/
theorem iblk1_apply (c : Dev nD) (t : Fin cfg0.N) (q k : Fin 4096) (q' : Fin 4096) (hq : q'.val = q.val) :
    (iblk m c 1 t : FVec Ideal S4096x4096 .bf16) (ix2 q k) = (V m c main_v3 : FVec Ideal S4096x4096 .bf16) (ix2 q' k) := by
  obtain ⟨-, -, e2, e3, -⟩ := idx_facts t
  have hemb : ((cfg0.win 1).blk t).view.emb (ix2 q k) = ix2 q' k := by
    funext a
    apply Fin.ext
    match a with
    | ⟨0, _⟩ => show win0_1.index t 0 * 4096 + 1 * q.val = q'.val; rw [e2, hq]; omega
    | ⟨1, _⟩ => show win0_1.index t 1 * 4096 + 1 * k.val = k.val; rw [e3]; omega
  unfold iblk
  rw [View.read_apply, hemb]
  exact cast_eq _ _

/-- What point `t` writes back is block `t` of `rowsTimes` of the two arrays the region finds. -/
theorem flushed_eq (c : Dev nD) (t : Fin cfg0.N) :
    (dats m 0 c).flushed 2 t
      = ((cfg0.win 2).blk t).view.read (Elt Ideal) (rowsTimes (V m c main_v4) (V m c main_v3)) := by
  show (cfg0.win 2).cut (grid0.coords t) ((dats m 0 c).after 2 t) = _
  rw [after0_2]
  unfold out0_2
  rw [View.canon_unit_zero hz]
  simp only [View.ld_unit_zero (S := S256x4096) hz, View.ld_unit_zero (S := S4096x4096) hz]
  obtain ⟨-, -, -, -, e4, e5⟩ := idx_facts t
  funext j
  obtain ⟨p, q, rfl⟩ : ∃ (p : Fin 256) (q : Fin 4096), j = ix2 p q := ⟨j 0, j 1, eq_ix2 j⟩
  have hx : (cfg0.win 2).xinj (grid0.coords t) (ix2 p q) = ix2 p q := by
    funext a
    apply Fin.ext
    match a with
    | ⟨0, _⟩ => rfl
    | ⟨1, _⟩ => rfl
  show k0_pay1 (iblk m c 0 t) (iblk m c 1 t) ((cfg0.win 2).xinj (grid0.coords t) (ix2 p q)) = _
  rw [hx]
  refine (pay_apply (iblk m c 0 t) (iblk m c 1 t) p q).trans ?_
  rw [View.read_apply]
  refine Eq.trans ?_ (cast_eq _ _).symm
  unfold rowsTimes
  refine Finset.sum_congr rfl fun k _ => ?_
  rw [iblk0_apply m c t p k ((((cfg0.win 2).blk t).view.emb (ix2 p q)) 0) (by
        show win0_2.index t 0 * 256 + 1 * p.val = _; rw [e4]; omega),
    iblk1_apply m c t q k ((((cfg0.win 2).blk t).view.emb (ix2 p q)) 1) (by
        show win0_2.index t 1 * 4096 + 1 * q.val = _; rw [e5]; omega)]

/-- An index of the result array is in point `t`'s block iff each coordinate is in the block's range. -/
theorem mem_blk (t : Fin cfg0.N) (i : S8192x4096.Idx) :
    i ∈ ((cfg0.win 2).blk t).view.set ↔ ∀ a : Fin 2, win0_2.index t a * S256x4096.size a ≤ (i a).val
      ∧ (i a).val < win0_2.index t a * S256x4096.size a + S256x4096.size a := by
  show i ∈ ((View.whole main_v5).slice (win0_2.rect t)).set ↔ _
  rw [View.set_slice_whole, Rect.mem_set_unit]
  exact Iff.rfl

/-- Row `r` lies in the block of point `r / 256`: the 32 blocks cover the array. -/
theorem cover (i : S8192x4096.Idx) :
    ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 32 := N_0
  have ht : (i 0).val / 256 < cfg0.N := by rw [hN]; omega
  obtain ⟨-, -, -, -, e4, e5⟩ := idx_facts ⟨(i 0).val / 256, ht⟩
  refine ⟨⟨(i 0).val / 256, ht⟩, flush0_2 _, ?_⟩
  rw [mem_blk]
  intro a
  match a with
  | ⟨0, _⟩ =>
    show win0_2.index ⟨(i 0).val / 256, ht⟩ 0 * 256 ≤ (i 0).val ∧ (i 0).val < win0_2.index ⟨(i 0).val / 256, ht⟩ 0 * 256 + 256
    rw [e4]
    show (i 0).val / 256 * 256 ≤ (i 0).val ∧ (i 0).val < (i 0).val / 256 * 256 + 256
    omega
  | ⟨1, _⟩ =>
    show win0_2.index ⟨(i 0).val / 256, ht⟩ 1 * 4096 ≤ (i 1).val ∧ (i 1).val < win0_2.index ⟨(i 0).val / 256, ht⟩ 1 * 4096 + 4096
    rw [e5]
    omega

/-- The result window's array after the region: `rowsTimes` of the two arrays the region finds. -/
theorem final2 (c : Dev nD) :
    (dats m 0 c).arrAt 2 cfg0.N = rowsTimes (V m c main_v4) (V m c main_v3) :=
  (dats m 0 c).arrAt_eq_of_cover 2 (rowsTimes (V m c main_v4) (V m c main_v3)) (fun t _ => flushed_eq m c t) cover

set_option maxHeartbeats 1000000 in
/-- The program's result: the host line after the region re-lays the result array as `[4, 2048, 4096]`. -/
theorem tail_eq (c : Dev nD) :
    Pipeline.afterTail₀ cfgs (dats m) 0 (V0 m) [hostOps1] c main_v6
      = shapeCast S4x2048x4096 (rowsTimes (V m c main_v4) (V m c main_v3)) shapeCasts_S8192x4096_S4x2048x4096 := by
  have hw : Pipeline.withArrays (cfgs 0).spec c (V0 m c) (fun w => (dats m 0 c).arrAt w (cfgs 0).N) (Proc.devRef .tc main_v5)
      = rowsTimes (V m c main_v4) (V m c main_v3) :=
    (Pipeline.withArrays_arr spec0 launch0.win.arr_inj c (V0 m c) (fun w => (dats m 0 c).arrAt w cfg0.N) 2).trans (final2 m c)
  unfold Pipeline.afterTail₀
  show StableHlo.after hostOps1 _ (Proc.devRef .tc main_v6) = _
  after_results
  rw [hw]
  generalize rowsTimes (V m c main_v4) (V m c main_v3) = X
  rfl

end Cert.KernelIdeal.Hand

end
-- ==== Proof.IndexRange.lean ====
/-
  Words and masks behind a table lookup with Python's negative-index convention.

  A lookup `table[g]` into a table of 65536 entries first wraps a negative index (`g + 65536` when `g < 0`).
  For `-65536 ≤ g < 65536` the wrapped index lies in `[0, 65535]`, so a guard that tests exactly that range
  (`0 ≤ · ∧ · ≤ 65535`, and-reduced with `true`) is everywhere set, and a select on it keeps its first branch.
-/
import Idealize.ShloMosaic.Lib.ReduceAll
import Idealize.ShloMosaic.Lib.ValueIdx

namespace Idealize.ShloMosaic.IndexRange

open Idealize.ShloMosaic

/-- The wrapped index: `g + 65536` below zero, `g` otherwise (signed 32-bit words). -/
def wrap (g : BitVec 32) : BitVec 32 :=
  Scalar.select (IntOp.cmpi .slt g 0#32) (IntOp.addi g 65536#32) g

/-- For `-65536 ≤ g < 65536` the wrapped index is in `[0, 65535]`. -/
theorem wrap_inRange (g : BitVec 32) (h1 : (-65536 : Int) ≤ g.toInt) (h2 : g.toInt < 65536) :
    IntOp.cmpi .sge (wrap g) 0#32 = 1#1 ∧ IntOp.cmpi .sle (wrap g) 65535#32 = 1#1 := by
  rw [IntOp.cmpi_sge, IntOp.cmpi_sle]
  have h0 : (0#32 : BitVec 32).toInt = 0 := by decide
  have h65535 : (65535#32 : BitVec 32).toInt = 65535 := by decide
  have h65536 : (65536#32 : BitVec 32).toInt = 65536 := by decide
  rw [h0, h65535]
  unfold wrap
  by_cases hneg : g.toInt < 0
  · have hc : IntOp.cmpi .slt g 0#32 = 1#1 := IntOp.cmpi_slt.2 (by rw [h0]; exact hneg)
    rw [hc, ValueIdx.select_one]
    have ha : (IntOp.addi g 65536#32).toInt = g.toInt + 65536 := by
      show (g + 65536#32).toInt = _
      rw [BitVec.toInt_add, h65536, Int.bmod_def]
      split <;> omega
    rw [ha]
    omega
  · have hc : IntOp.cmpi .slt g 0#32 = 0#1 :=
      ValueIdx.eq_zero_of_ne_one (fun h => hneg (by have := IntOp.cmpi_slt.1 h; rwa [h0] at this))
    rw [hc, ValueIdx.select_zero]
    omega

/-- A left fold by `and` from `1` over words that are all `1` is `1`. -/
theorem foldl_andi_of_all {ι : Type} (f : ι → BitVec 1) :
    ∀ (l : List ι) (init : BitVec 1), init = 1#1 → (∀ n ∈ l, f n = 1#1) →
      l.foldl (fun r n => IntOp.andi r (f n)) init = 1#1
  | [], _, h, _ => h
  | a :: l, init, h, hl => by
    rw [List.foldl_cons]
    refine foldl_andi_of_all f l _ ?_ (fun n hn => hl n (List.mem_cons_of_mem _ hn))
    rw [h, hl a (List.mem_cons_self ..)]
    decide

/-- An and-reduction from the constant `true` of a mask that is everywhere set is set, at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_all x _ _ hinit (fun i _ => hx i)

/-- A select on a mask that is everywhere set is its first branch. -/
theorem select_of_all {s : Shape} {α : Type} (c : IVec s 1) (a b : s.Idx → α) (hc : ∀ i, c i = 1#1) :
    select c a b = a := by
  funext i
  rw [ValueIdx.select_apply, hc i, ValueIdx.select_one]

end Idealize.ShloMosaic.IndexRange
-- ==== Proof.KernelWeights.lean ====
/-
  What the host lines before the region leave in the two arrays the kernel's input windows stage.

  The weight array: the table looked up at the wrapped indices (a negative index plus 65536), an out-of-range
  lookup replaced by a fill value, every row `o` multiplied by `scale[o, 0]`, then narrowed to bf16. The
  activation array: `x` re-laid as `[8192, 4096]`, row `b·2048 + s` being `x[b, s, ·]`.

  Where every index lies in `[-65536, 65536)` the range guard is set everywhere, no lookup is replaced, and at the
  extended reals (narrowing is the identity there) the weights are `table[wrap g[o, k]] · scale[o, 0]`.
-/
import proofs.«407452_j50663434223822_2_alg».proof.Proof.Gen.KernelIdeal.Frame
import proofs.«407452_j50663434223822_2_alg».proof.Proof.IndexRange
import Idealize.ShloMosaic.Lib.StableHlo.Run

noncomputable section

namespace Cert.KernelIdeal.Weights

open Cert.KernelIdeal Cert.KernelIdeal.Gen Idealize.ShloMosaic Idealize.ShloMosaic.TcCoe Idealize.SL.Sem
open Idealize.ShloMosaic.StableHlo

variable {F : FTy → Type} [FloatOps F]

/-- The start indices of the lookup: every index wrapped (plus 65536 below zero), as a `[4096, 4096, 1]` column. -/
def startIdx (g : (⟨S4096x4096, .i32⟩ : BufTy).Contents (Elt F)) : (⟨S4096x4096x1, .i32⟩ : BufTy).Contents (Elt F) :=
  broadcastInDim S4096x4096x1 ![0, 1] bcast_S4096x4096_S4096x4096x1_0_1
    (select (cmpi .slt g (broadcastInDim S4096x4096 ![] bcast_S_S4096x4096 (constantI S_ 32 0#32)))
      (addi g (broadcastInDim S4096x4096 ![] bcast_S_S4096x4096 (constantI S_ 32 65536#32))) g)

/-- The range guard: `0 ≤ start ≤ 65535`, and-reduced over the column's unit axis. -/
def inRange (g : (⟨S4096x4096, .i32⟩ : BufTy).Contents (Elt F)) : (⟨S4096x4096, .i1⟩ : BufTy).Contents (Elt F) :=
  Host.reduce IntOp.andi
    (andi (cmpi .sge (startIdx (F := F) g) (broadcastInDim S4096x4096x1 ![] bcast_S_S4096x4096x1 (constantI S_ 32 0#32)))
      (cmpi .sle (startIdx (F := F) g) (broadcastInDim S4096x4096x1 ![0, 1, 2] bcast_S1x1x1_S4096x4096x1_0_1_2
        (broadcastInDim S1x1x1 ![2] bcast_S1_S1x1x1_2 (constantI S1 32 65535#32)))))
    (constantI S_ 1 1#1) reducesTo_S4096x4096x1_S4096x4096_d2 h_S_

/-- The table looked up at the start indices. -/
def looked (g : (⟨S4096x4096, .i32⟩ : BufTy).Contents (Elt F)) (lut : (⟨S65536, .f32⟩ : BufTy).Contents (Elt F)) : (⟨S4096x4096, .f32⟩ : BufTy).Contents (Elt F) :=
  Host.gather gather_S65536_S4096x4096x1_S4096x4096_n_0_n_n_0_2_1 lut (startIdx (F := F) g)

/-- The per-row scale laid along each row. -/
def scaleRows (scale : (⟨S4096x1, .f32⟩ : BufTy).Contents (Elt F)) : (⟨S4096x4096, .f32⟩ : BufTy).Contents (Elt F) :=
  broadcastInDim S4096x4096 ![0, 1] bcast_S4096x1_S4096x4096_0_1 scale

/-- The weight array as the host lines compute it. -/
def weights (g : (⟨S4096x4096, .i32⟩ : BufTy).Contents (Elt F)) (lut : (⟨S65536, .f32⟩ : BufTy).Contents (Elt F)) (scale : (⟨S4096x1, .f32⟩ : BufTy).Contents (Elt F)) : (⟨S4096x4096, .bf16⟩ : BufTy).Contents (Elt F) :=
  truncf .bf16 (mulf (select (inRange (F := F) g) (looked g lut)
    (broadcastInDim S4096x4096 ![] bcast_S_S4096x4096 (constant S_ .f32 0x7FC00000#32))) (scaleRows scale)) bitsLt_bf16_f32

/-- Contents written through a typed reference read back unchanged. -/
theorem ofBuf_toBuf {T : BufTy} (x : TRef sig T) (v : T.Contents (Elt F)) : x.ofBuf (x.toBuf v) = v := by
  obtain ⟨r, h, h1, h2⟩ := x
  subst h
  rfl

variable (m : (ℓ : Loc nD τ sig) → Buf (Elt F) ℓ)

set_option maxHeartbeats 2000000 in
/-- The region finds the weight window's array at `weights` of the launched index, table and scale arrays. -/
theorem V_main_v3 (c : Dev nD) : (V m c main_v3 : S4096x4096.Idx → Elt F .bf16)
    = weights (m ((c : Thread nD τ).loc main_arg1)) (m ((c : Thread nD τ).loc main_arg2)) (m ((c : Thread nD τ).loc main_arg3)) := by
  have e1 : (TRef.of main_arg1 : TRef sig ⟨S4096x4096, .i32⟩).ofBuf (m (c, Proc.devRef .tc main_arg1))
      = m ((c : Thread nD τ).loc main_arg1) := rfl
  have e2 : (TRef.of main_arg2 : TRef sig ⟨S65536, .f32⟩).ofBuf (m (c, Proc.devRef .tc main_arg2))
      = m ((c : Thread nD τ).loc main_arg2) := rfl
  have e0 : ∀ v : (⟨S4096x4096, .f32⟩ : BufTy).Contents (Elt F),
      (TRef.of main_v0 : TRef sig ⟨S4096x4096, .f32⟩).toBuf v = v := fun _ => rfl
  have e3 : m (c, Proc.devRef .tc main_arg3) = m ((c : Thread nD τ).loc main_arg3) := rfl
  dsimp only [V, V0]
  simp only [hostOps0, hostOps0_1, List.flatten_cons, List.flatten_nil, List.append_nil, List.cons_append, List.nil_append]
  after_results_simp
  simp only [ofBuf_toBuf]
  rw [e0, e1, e2, e3]
  unfold weights inRange looked scaleRows startIdx
  rfl

set_option maxHeartbeats 2000000 in
/-- The region finds the activation window's array at `x` re-laid as `[8192, 4096]`. -/
theorem V_main_v4 (c : Dev nD) : (V m c main_v4 : S8192x4096.Idx → Elt F .f32)
    = shapeCast S8192x4096 (m ((c : Thread nD τ).loc main_arg0)) shapeCasts_S4x2048x4096_S8192x4096 := by
  dsimp only [V, V0]
  simp only [hostOps0, hostOps0_1, List.flatten_cons, List.flatten_nil, List.append_nil, List.cons_append, List.nil_append]
  after_results_simp
  rfl

/-- With every index in `[-65536, 65536)` the range guard is set everywhere. -/
theorem inRange_all (g : IVec S4096x4096 32) (hg : ∀ j, (-65536 : Int) ≤ (g j).toInt ∧ (g j).toInt < 65536)
    (j : S4096x4096.Idx) : inRange (F := F) g j = 1#1 := by
  unfold inRange
  refine IndexRange.reduce_andi_of_all _ _ _ _ j rfl (fun i => ?_)
  obtain ⟨j', hj'⟩ : ∃ j' : S4096x4096.Idx, startIdx (F := F) g i = IndexRange.wrap (g j') := ⟨_, rfl⟩
  have hw := IndexRange.wrap_inRange (g j') (hg j').1 (hg j').2
  show IntOp.andi (IntOp.cmpi .sge (startIdx (F := F) g i) 0#32) (IntOp.cmpi .sle (startIdx (F := F) g i) 65535#32) = 1#1
  rw [hj', hw.1, hw.2]
  decide

/-- So at the extended reals the weights are the looked-up table entries times the row scales. -/
theorem weights_eq (g : IVec S4096x4096 32) (lut : FVec Ideal S65536 .f32) (scale : FVec Ideal S4096x1 .f32)
    (hg : ∀ j, (-65536 : Int) ≤ (g j).toInt ∧ (g j).toInt < 65536) :
    weights (F := Ideal) g lut scale
      = (mulf (looked (F := Ideal) g lut) (scaleRows (F := Ideal) scale) : FVec Ideal S4096x4096 .f32) := by
  unfold weights
  rw [IndexRange.select_of_all _ _ _ (inRange_all (F := Ideal) g hg)]
  rfl

end Cert.KernelIdeal.Weights

end
-- ==== Proof.KernelResult.lean ====
/-
  The kernel program's result is the linear layer of the looked-up, scaled weights.

  The region's result array is `rowsTimes xf w` with `xf` the activations re-laid as `[8192, 4096]` and `w` the
  weight array the host lines prepared; the line after the region re-lays it back as `[4, 2048, 4096]`. Row
  `b·2048 + s` of `xf` is `x[b, s, ·]`, so the result at `(b, s, o)` is `∑ k, x[b, s, k] · w[o, k]`. With every index
  in `[-65536, 65536)` the weights are the table entries at the wrapped indices times the row scales.
-/
import proofs.«407452_j50663434223822_2_alg».proof.Proof.KernelValue
import proofs.«407452_j50663434223822_2_alg».proof.Proof.KernelWeights

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx

/-- Re-laying `x` as rows, multiplying the rows with the weight rows and re-laying back is the linear layer. -/
theorem relaid_eq (x : FVec Ideal S4x2048x4096 .f32) (w : FVec Ideal S4096x4096 .bf16) :
    shapeCast S4x2048x4096 (rowsTimes (shapeCast S8192x4096 x shapeCasts_S4x2048x4096_S8192x4096) w)
      shapeCasts_S8192x4096_S4x2048x4096 = Cert.Spec.linear x w := by
  funext i
  obtain ⟨b, s, o, rfl⟩ : ∃ (b : Fin 4) (s : Fin 2048) (o : Fin 4096), i = ix3 b s o := ⟨i 0, i 1, i 2, eq_ix3 i⟩
  have hr : b.val * 2048 + s.val < 8192 := by have := b.isLt; have := s.isLt; omega
  refine (shapeCast_apply _ shapeCasts_S8192x4096_S4x2048x4096 (ix3 b s o)
    (ix2 (⟨b.val * 2048 + s.val, hr⟩ : Fin 8192) o) ?_).trans ?_
  · rw [Shape.rowMajor_val_two, Shape.rowMajor_val_three]
    rfl
  · show ∑ k : Fin 4096, shapeCast S8192x4096 x shapeCasts_S4x2048x4096_S8192x4096
        (ix2 (⟨b.val * 2048 + s.val, hr⟩ : Fin 8192) k) * w (ix2 o k) = ∑ k : Fin 4096, x (ix3 b s k) * w (ix2 o k)
    refine Finset.sum_congr rfl fun k _ => ?_
    rw [shapeCast_apply x shapeCasts_S4x2048x4096_S8192x4096 (ix2 (⟨b.val * 2048 + s.val, hr⟩ : Fin 8192) k) (ix3 b s k) (by
      rw [Shape.rowMajor_val_two, Shape.rowMajor_val_three]; rfl)]

variable (m : (ℓ : Loc nD τ sig) → Buf (Elt Ideal) ℓ) (ρ : Dev nD → PrngReg)

/-- The result buffer after the whole program, where every index lies in `[-65536, 65536)`. -/
theorem result_eq (c : Dev nD)
    (hg : ∀ j, (-65536 : Int) ≤ ((m ((c : Thread nD τ).loc main_arg1) : IVec S4096x4096 32) j).toInt
      ∧ ((m ((c : Thread nD τ).loc main_arg1) : IVec S4096x4096 32) j).toInt < 65536) :
    Pipeline.afterTail₀ cfgs (dats m) 0 (V0 m) [hostOps1] c main_v6
      = Cert.Spec.linear (m ((c : Thread nD τ).loc main_arg0))
          (mulf (Weights.looked (F := Ideal) (m ((c : Thread nD τ).loc main_arg1)) (m ((c : Thread nD τ).loc main_arg2)))
            (Weights.scaleRows (F := Ideal) (m ((c : Thread nD τ).loc main_arg3)))) := by
  rw [tail_eq, Weights.V_main_v4, Weights.V_main_v3, Weights.weights_eq _ _ _ hg]
  exact relaid_eq _ _

/-- The kernel program's run, read: the result at the linear layer of the looked-up weights, the arguments unchanged. -/
theorem run
    (hg : ∀ (c : Dev nD) j, (-65536 : Int) ≤ ((m ((c : Thread nD τ).loc main_arg1) : IVec S4096x4096 32) j).toInt
      ∧ ((m ((c : Thread nD τ).loc main_arg1) : IVec S4096x4096 32) j).toInt < 65536) :
    θ_run defs (onTc (τ := τ) (main (F := Ideal))) ⟨m, fun _ => 0, ρ⟩ fun r => ∀ c : Dev nD,
      r.2.mem ((c.tc : Thread nD τ).loc main_v6)
        = Cert.Spec.linear (m ((c : Thread nD τ).loc main_arg0))
          (mulf (Weights.looked (F := Ideal) (m ((c : Thread nD τ).loc main_arg1)) (m ((c : Thread nD τ).loc main_arg2)))
            (Weights.scaleRows (F := Ideal) (m ((c : Thread nD τ).loc main_arg3))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v6 (Pipeline.mem_restRefs_of main_v6 (by decide) (by decide))).trans (result_eq m c (hg c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefValue.lean ====
/-
  The reference's result is the linear layer of its own weight matrix.

  The reference contracts the last axis of `x : [4, 2048, 4096]` with the last axis of its weight matrix
  `w : [4096, 4096]`: at `(b, s, o)` it is `∑ k, x[b, s, k] · w[o, k]` — the specification, term for term.
-/
import proofs.«407452_j50663434223822_2_alg».proof.Proof.Gen.ReferenceIdeal.Read
import proofs.«407452_j50663434223822_2_alg».proof.Proof.LinearSpec

noncomputable section

namespace Cert.ReferenceIdeal.RefValue

open Cert.ReferenceIdeal Cert.ReferenceIdeal.Gen Idealize.ShloMosaic Idealize.ShloMosaic.ValueIdx

/-- The reference's contraction at an index is the inner product of an activation row with a weight row. -/
theorem result_eq (x : FVec Ideal S4x2048x4096 .f32) (g : IVec S4096x4096 32) (lut : FVec Ideal S65536 .f32)
    (scale : FVec Ideal S4096x1 .f32) :
    Read.val_main_v9 (F := Ideal) x g lut scale = Cert.Spec.linear x (Read.val_main_v8 (F := Ideal) g lut scale) := by
  funext i
  rw [Read.val_main_v9_apply]
  refine Finset.sum_congr rfl fun k _ => ?_
  have el : Read.lidx_main_v9 i k = ix3 (i 0) (i 1) k := funext fun a => Fin.ext (by
    match a with
    | ⟨0, _⟩ => rfl
    | ⟨1, _⟩ => rfl
    | ⟨2, _⟩ => rfl)
  have er : Read.ridx_main_v9 i k = ix2 (i 2) k := funext fun a => Fin.ext (by
    match a with
    | ⟨0, _⟩ => rfl
    | ⟨1, _⟩ => rfl)
  rw [el, er]
  rfl

end Cert.ReferenceIdeal.RefValue

end
-- ==== Proof.WeightsAgree.lean ====
/-
  The two programs prepare the same weight matrix.

  Both look the table up at the wrapped indices (a negative index plus 65536) and multiply row `o` by
  `scale[o, 0]`; the kernel program's weights without its range guard are, operation for operation, the reference's.
-/
import proofs.«407452_j50663434223822_2_alg».proof.Proof.KernelWeights
import proofs.«407452_j50663434223822_2_alg».proof.Proof.Gen.ReferenceIdeal.Read

noncomputable section

namespace Cert.Bridge

open Idealize.ShloMosaic

/-- The kernel program's looked-up, scaled weights are the reference's weight matrix. -/
theorem weights_agree (g : IVec ⟨2, ![4096, 4096]⟩ 32) (lut : FVec Ideal ⟨1, ![65536]⟩ .f32)
    (scale : FVec Ideal ⟨2, ![4096, 1]⟩ .f32) :
    (mulf (Cert.KernelIdeal.Weights.looked (F := Ideal) g lut) (Cert.KernelIdeal.Weights.scaleRows (F := Ideal) scale)
        : FVec Ideal ⟨2, ![4096, 4096]⟩ .f32)
      = Cert.ReferenceIdeal.Read.val_main_v8 (F := Ideal) g lut scale := rfl

end Cert.Bridge

end
-- ==== Proof.lean ====
/-
  A quantised linear layer: a table lookup of the weights, a per-row scale, and a matrix product.

  Both programs compute `out[b, s, o] = ∑ k, x[b, s, k] · w[o, k]` with `w[o, k] = table[g[o, k]] · scale[o, 0]`,
  a negative index `g` wrapped by the table's length 65536. The kernel program narrows `w` to bf16 (the identity on
  the extended reals), re-lays `x` as `[8192, 4096]`, multiplies 32 blocks of 256 rows with the whole of `w` and
  re-lays the result back; the reference contracts `x` with `w` in one product. The kernel program's lookup replaces
  an out-of-range lookup by a fill value where the reference's clamps the index: the precondition keeps every index
  in `[-65536, 65536)`, where no lookup is out of range and the two weight matrices are one. The sums are then the
  same sums, term for term; no law of the extended reals beyond that is used.
-/
import proofs.«407452_j50663434223822_2_alg».proof.Defs
import proofs.«407452_j50663434223822_2_alg».proof.Proof.Gen.Kernel
import proofs.«407452_j50663434223822_2_alg».proof.Proof.Gen.Kernel.Skeleton
import proofs.«407452_j50663434223822_2_alg».proof.Proof.Gen.Kernel.Launch
import proofs.«407452_j50663434223822_2_alg».proof.Proof.Gen.Kernel.Points
import proofs.«407452_j50663434223822_2_alg».proof.Proof.Gen.Kernel.Frame
import proofs.«407452_j50663434223822_2_alg».proof.Proof.Gen.KernelIdeal
import proofs.«407452_j50663434223822_2_alg».proof.Proof.Gen.KernelIdeal.Skeleton
import proofs.«407452_j50663434223822_2_alg».proof.Proof.Gen.KernelIdeal.Launch
import proofs.«407452_j50663434223822_2_alg».proof.Proof.Gen.KernelIdeal.Points
import proofs.«407452_j50663434223822_2_alg».proof.Proof.Gen.KernelIdeal.Frame
import proofs.«407452_j50663434223822_2_alg».proof.Proof.Gen.ReferenceIdeal
import proofs.«407452_j50663434223822_2_alg».proof.Proof.Gen.ReferenceIdeal.Run
import proofs.«407452_j50663434223822_2_alg».proof.Proof.Gen.ReferenceIdeal.Read
import proofs.«407452_j50663434223822_2_alg».proof.Proof.Gen.Pre_finite_inputs
import proofs.«407452_j50663434223822_2_alg».proof.Proof.PreRange
import proofs.«407452_j50663434223822_2_alg».proof.Proof.KernelResult
import proofs.«407452_j50663434223822_2_alg».proof.Proof.RefValue
import proofs.«407452_j50663434223822_2_alg».proof.Proof.WeightsAgree
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- So does the kernel program read at the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Under the precondition both programs end at the linear layer of the same weight matrix. -/
theorem algebraic : Cert.algebraic_KernelIdeal_ReferenceIdeal := by
  intro m ρ m' ρ' hpre hagree
  have hg : ∀ (c : Dev Cert.KernelIdeal.nD) j,
      (-65536 : Int) ≤ ((m ((c : Thread Cert.KernelIdeal.nD Cert.KernelIdeal.τ).loc Cert.KernelIdeal.main_arg1)
          : IVec Cert.KernelIdeal.S4096x4096 32) j).toInt
      ∧ ((m ((c : Thread Cert.KernelIdeal.nD Cert.KernelIdeal.τ).loc Cert.KernelIdeal.main_arg1)
          : IVec Cert.KernelIdeal.S4096x4096 32) j).toInt < 65536 :=
    fun c j => Cert.Pre_finite_inputs.Range.index_range _ _ _ _ (hpre c) j
  refine ⟨_, Cert.KernelIdeal.Hand.run m ρ hg, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq,
    (hagree c).1, (hagree c).2.1, (hagree c).2.2.1, (hagree c).2.2.2, ← Cert.Bridge.weights_agree]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
